-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8 : Shape := ⟨2, ![512, 8]⟩
abbrev S4x8 : Shape := ⟨2, ![4, 8]⟩
abbrev S65536x8 : Shape := ⟨2, ![65536, 8]⟩
abbrev S_ : Shape := ⟨0, ![]⟩

class Facts : Prop where
  bcast_S_S512x8 : S_.BroadcastsInDim S512x8 (![] : Fin 0 → Fin S512x8.rank)
  reducesTo_S512x8_S_d0_1 : S512x8.ReducesTo [0, 1] S_
  h_S_ : 0 < S_.numel
  bcast_S_S4x8 : S_.BroadcastsInDim S4x8 (![] : Fin 0 → Fin S4x8.rank)
  reducesTo_S4x8_S_d0_1 : S4x8.ReducesTo [0, 1] S_
  bcast_S_S65536x8 : S_.BroadcastsInDim S65536x8 (![] : Fin 0 → Fin S65536x8.rank)
  reducesTo_S65536x8_S_d0_1 : S65536x8.ReducesTo [0, 1] S_

variable [Facts]

def fn_part1 {F : FTy → Type} [FloatOps F] (main_v13 : IVec S_ 1) (main_v15 : IVec S65536x8 1) (main_c_5 : IVec S_ 1) : IVec S_ 1 :=
  let main_v16 : IVec S_ 1 := (fun x v => Host.reduce IntOp.andi x v reducesTo_S65536x8_S_d0_1 h_S_) main_v15 main_c_5
  let main_v17 : IVec S_ 1 := andi main_v13 main_v16
  main_v17

def fn {F : FTy → Type} [FloatOps F] (main_arg0 : FVec F S512x8 .f32) (main_arg1 : FVec F S4x8 .f32) (main_arg2 : FVec F S4x8 .f32) (main_arg3 : IVec S65536x8 32) : IVec S_ 1 :=
  let main_v0 : FVec F S512x8 .f32 := Host.absf main_arg0
  let main_cst : FVec F S_ .f32 := constant S_ .f32 0x7F800000#32
  let main_v1 : FVec F S512x8 .f32 := broadcastInDim S512x8 ![] bcast_S_S512x8 main_cst
  let main_v2 : IVec S512x8 1 := cmpf .olt main_v0 main_v1
  let main_c : IVec S_ 1 := constantI S_ 1 1#1
  let main_v3 : IVec S_ 1 := (fun x v => Host.reduce IntOp.andi x v reducesTo_S512x8_S_d0_1 h_S_) main_v2 main_c
  let main_v4 : FVec F S4x8 .f32 := Host.absf main_arg1
  let main_cst_0 : FVec F S_ .f32 := constant S_ .f32 0x7F800000#32
  let main_v5 : FVec F S4x8 .f32 := broadcastInDim S4x8 ![] bcast_S_S4x8 main_cst_0
  let main_v6 : IVec S4x8 1 := cmpf .olt main_v4 main_v5
  let main_c_1 : IVec S_ 1 := constantI S_ 1 1#1
  let main_v7 : IVec S_ 1 := (fun x v => Host.reduce IntOp.andi x v reducesTo_S4x8_S_d0_1 h_S_) main_v6 main_c_1
  let main_v8 : IVec S_ 1 := andi main_v3 main_v7
  let main_v9 : FVec F S4x8 .f32 := Host.absf main_arg2
  let main_cst_2 : FVec F S_ .f32 := constant S_ .f32 0x7F800000#32
  let main_v10 : FVec F S4x8 .f32 := broadcastInDim S4x8 ![] bcast_S_S4x8 main_cst_2
  let main_v11 : IVec S4x8 1 := cmpf .olt main_v9 main_v10
  let main_c_3 : IVec S_ 1 := constantI S_ 1 1#1
  let main_v12 : IVec S_ 1 := (fun x v => Host.reduce IntOp.andi x v reducesTo_S4x8_S_d0_1 h_S_) main_v11 main_c_3
  let main_v13 : IVec S_ 1 := andi main_v8 main_v12
  let main_c_4 : IVec S_ 32 := constantI S_ 32 0#32
  let main_v14 : IVec S65536x8 32 := broadcastInDim S65536x8 ![] bcast_S_S65536x8 main_c_4
  let main_v15 : IVec S65536x8 1 := cmpi .sge main_arg3 main_v14
  let main_c_5 : IVec S_ 1 := constantI S_ 1 1#1
  fn_part1 (F := F) main_v13 main_v15 main_c_5
-- ==== Kernel.lean ====
abbrev S512x8 : Shape := ⟨2, ![512, 8]⟩
abbrev S4x8 : Shape := ⟨2, ![4, 8]⟩
abbrev S65536x8 : Shape := ⟨2, ![65536, 8]⟩
abbrev S512x1x8 : Shape := ⟨3, ![512, 1, 8]⟩
abbrev S1x4x8 : Shape := ⟨3, ![1, 4, 8]⟩
abbrev S512x4x8 : Shape := ⟨3, ![512, 4, 8]⟩
abbrev S_ : Shape := ⟨0, ![]⟩
abbrev S512x8x4 : Shape := ⟨3, ![512, 8, 4]⟩
abbrev S512x32 : Shape := ⟨2, ![512, 32]⟩
abbrev S8x65536 : Shape := ⟨2, ![8, 65536]⟩
abbrev S512x65536 : Shape := ⟨2, ![512, 65536]⟩
abbrev S8x8192 : Shape := ⟨2, ![8, 8192]⟩
abbrev S512x8192 : Shape := ⟨2, ![512, 8192]⟩
abbrev S1x4x1 : Shape := ⟨3, ![1, 4, 1]⟩
abbrev S8x1x8192 : Shape := ⟨3, ![8, 1, 8192]⟩
abbrev S8x4x8192 : Shape := ⟨3, ![8, 4, 8192]⟩
abbrev S32x8192 : Shape := ⟨2, ![32, 8192]⟩

abbrev nBuf : Space → Nat
  | .hbm => 30
  | .vmem => 5
  | .smem => 0
  | _ => 0

abbrev bufTy : (tb : Table) → Fin (tcTables nBuf tb) → BufTy
  | .hbm, ⟨0, _⟩ => ⟨S512x8, .f32⟩
  | .hbm, ⟨1, _⟩ => ⟨S4x8, .f32⟩
  | .hbm, ⟨2, _⟩ => ⟨S4x8, .f32⟩
  | .hbm, ⟨3, _⟩ => ⟨S65536x8, .i32⟩
  | .hbm, ⟨4, _⟩ => ⟨S512x1x8, .f32⟩
  | .hbm, ⟨5, _⟩ => ⟨S1x4x8, .f32⟩
  | .hbm, ⟨6, _⟩ => ⟨S512x4x8, .f32⟩
  | .hbm, ⟨7, _⟩ => ⟨S512x4x8, .f32⟩
  | .hbm, ⟨8, _⟩ => ⟨S512x4x8, .f32⟩
  | .hbm, ⟨9, _⟩ => ⟨S512x4x8, .f32⟩
  | .hbm, ⟨10, _⟩ => ⟨S512x4x8, .f32⟩
  | .hbm, ⟨11, _⟩ => ⟨S_, .f32⟩
  | .hbm, ⟨12, _⟩ => ⟨S4x8, .f32⟩
  | .hbm, ⟨13, _⟩ => ⟨S4x8, .f32⟩
  | .hbm, ⟨14, _⟩ => ⟨S4x8, .f32⟩
  | .hbm, ⟨15, _⟩ => ⟨S1x4x8, .f32⟩
  | .hbm, ⟨16, _⟩ => ⟨S512x4x8, .f32⟩
  | .hbm, ⟨17, _⟩ => ⟨S512x4x8, .f32⟩
  | .hbm, ⟨18, _⟩ => ⟨S512x8x4, .f32⟩
  | .hbm, ⟨19, _⟩ => ⟨S512x32, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S65536x8, .i32⟩
  | .hbm, ⟨24, _⟩ => ⟨S65536x8, .i32⟩
  | .hbm, ⟨25, _⟩ => ⟨S_, .i32⟩
  | .hbm, ⟨26, _⟩ => ⟨S65536x8, .i32⟩
  | .hbm, ⟨27, _⟩ => ⟨S65536x8, .i32⟩
  | .hbm, ⟨28, _⟩ => ⟨S8x65536, .i32⟩
  | .hbm, ⟨29, _⟩ => ⟨S512x65536, .f32⟩
  | .local _ .vmem, ⟨0, _⟩ => ⟨S512x32, .f32⟩
  | .local _ .vmem, ⟨1, _⟩ => ⟨S8x8192, .i32⟩
  | .local _ .vmem, ⟨2, _⟩ => ⟨S8x8192, .i32⟩
  | .local _ .vmem, ⟨3, _⟩ => ⟨S512x8192, .f32⟩
  | .local _ .vmem, ⟨4, _⟩ => ⟨S512x8192, .f32⟩
  | _, _ => ⟨S512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S512x8_S512x1x8_0_2 : S512x8.BroadcastsInDim S512x1x8 (![0, 2] : Fin 2 → Fin S512x1x8.rank)
  bcast_S4x8_S1x4x8_1_2 : S4x8.BroadcastsInDim S1x4x8 (![1, 2] : Fin 2 → Fin S1x4x8.rank)
  bcast_S512x1x8_S512x4x8_0_1_2 : S512x1x8.BroadcastsInDim S512x4x8 (![0, 1, 2] : Fin 3 → Fin S512x4x8.rank)
  bcast_S1x4x8_S512x4x8_0_1_2 : S1x4x8.BroadcastsInDim S512x4x8 (![0, 1, 2] : Fin 3 → Fin S512x4x8.rank)
  bcast_S_S4x8 : S_.BroadcastsInDim S4x8 (![] : Fin 0 → Fin S4x8.rank)
  transposes_S512x4x8_S512x8x4_0_2_1 : S512x4x8.Transposes [0, 2, 1] S512x8x4
  shapeCasts_S512x8x4_S512x32 : S512x8x4.ShapeCasts S512x32
  bcast_S_S65536x8 : S_.BroadcastsInDim S65536x8 (![] : Fin 0 → Fin S65536x8.rank)
  transposes_S65536x8_S8x65536_1_0 : S65536x8.Transposes [1, 0] S8x65536
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S8x8192_S8x8192_0_0 : ∀ a, (![0, 0] : Fin 2 → Nat) a + S8x8192.size a ≤ S8x8192.size a
  h_S8x8192 : 0 < S8x8192.numel
  shapeCasts_S8x8192_S8x8192 : S8x8192.ShapeCasts S8x8192
  iota_S1x4x1_d1_w32 : S1x4x1.Iotas .tc 32 [1]
  shapeCasts_S8x8192_S8x1x8192 : S8x8192.ShapeCasts S8x1x8192
  broadcasts_S8x1x8192_S8x4x8192 : S8x1x8192.Broadcasts S8x4x8192
  broadcasts_S1x4x1_S8x4x8192 : S1x4x1.Broadcasts S8x4x8192
  natLt_1_32 : 1 < 32
  bitsLt_bf16_f32 : FTy.bits .bf16 < FTy.bits .f32
  shapeCasts_S8x4x8192_S32x8192 : S8x4x8192.ShapeCasts S32x8192
  inb_S512x8192_S512x8192_0_0 : ∀ a, (![0, 0] : Fin 2 → Nat) a + S512x8192.size a ≤ S512x8192.size a
  h_S512x8192 : 0 < S512x8192.numel
  dot_S512x32_S32x8192_S512x8192_1_0_0_1_n_n_wf : DotDims.WF S512x32 S32x8192 S512x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S512x32.size a
  hwx0_0 : ∀ i : grid0.Coords, EltTy.bits .f32 = 32 ∨ (Rect.block (s := S512x32) S512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8192.size a ≤ S8x65536.size a
  hwx0_1 : ∀ i : grid0.Coords, EltTy.bits .i32 = 32 ∨ (Rect.block (s := S8x65536) S8x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8192.size a ≤ S512x65536.size a
  hwx0_2 : ∀ i : grid0.Coords, EltTy.bits .f32 = 32 ∨ (Rect.block (s := S512x65536) S512x8192.size (cc0_transform_2 i) (hinb0_2 i)).WholeWords (EltTy.packing .f32)

variable [Facts₀]

def dot_S512x32_S32x8192_S512x8192_1_0_0_1_n_n : DotDims S512x32 S32x8192 S512x8192 where
  lhsContracting := [1]
  rhsContracting := [0]
  lhsNonContracting := [0]
  rhsNonContracting := [1]
  lhsBatch := []
  rhsBatch := []
  wf := dot_S512x32_S32x8192_S512x8192_1_0_0_1_n_n_wf

abbrev win0_0 : Pipeline.Window sig grid0 :=
  Pipeline.Window.ofSpec (Memref.whole main_v14) S512x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S8x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x8 : Shape := ⟨2, ![512, 8]⟩
abbrev S4x8 : Shape := ⟨2, ![4, 8]⟩
abbrev S65536x8 : Shape := ⟨2, ![65536, 8]⟩
abbrev S512x1x8 : Shape := ⟨3, ![512, 1, 8]⟩
abbrev S1x4x8 : Shape := ⟨3, ![1, 4, 8]⟩
abbrev S512x4x8 : Shape := ⟨3, ![512, 4, 8]⟩
abbrev S_ : Shape := ⟨0, ![]⟩
abbrev S8 : Shape := ⟨1, ![8]⟩
abbrev S65536x8x1 : Shape := ⟨3, ![65536, 8, 1]⟩
abbrev S65536x8x2 : Shape := ⟨3, ![65536, 8, 2]⟩
abbrev S512x65536x8 : Shape := ⟨3, ![512, 65536, 8]⟩
abbrev S512x65536 : Shape := ⟨2, ![512, 65536]⟩

abbrev nBuf : Space → Nat
  | .hbm => 41
  | .vmem => 0
  | .smem => 0
  | _ => 0

abbrev bufTy : (tb : Table) → Fin (tcTables nBuf tb) → BufTy
  | .hbm, ⟨0, _⟩ => ⟨S512x8, .f32⟩
  | .hbm, ⟨1, _⟩ => ⟨S4x8, .f32⟩
  | .hbm, ⟨2, _⟩ => ⟨S4x8, .f32⟩
  | .hbm, ⟨3, _⟩ => ⟨S65536x8, .i32⟩
  | .hbm, ⟨4, _⟩ => ⟨S512x1x8, .f32⟩
  | .hbm, ⟨5, _⟩ => ⟨S1x4x8, .f32⟩
  | .hbm, ⟨6, _⟩ => ⟨S512x4x8, .f32⟩
  | .hbm, ⟨7, _⟩ => ⟨S512x4x8, .f32⟩
  | .hbm, ⟨8, _⟩ => ⟨S512x4x8, .f32⟩
  | .hbm, ⟨9, _⟩ => ⟨S512x4x8, .f32⟩
  | .hbm, ⟨10, _⟩ => ⟨S512x4x8, .f32⟩
  | .hbm, ⟨11, _⟩ => ⟨S_, .f32⟩
  | .hbm, ⟨12, _⟩ => ⟨S4x8, .f32⟩
  | .hbm, ⟨13, _⟩ => ⟨S4x8, .f32⟩
  | .hbm, ⟨14, _⟩ => ⟨S4x8, .f32⟩
  | .hbm, ⟨15, _⟩ => ⟨S1x4x8, .f32⟩
  | .hbm, ⟨16, _⟩ => ⟨S512x4x8, .f32⟩
  | .hbm, ⟨17, _⟩ => ⟨S512x4x8, .f32⟩
  | .hbm, ⟨18, _⟩ => ⟨S8, .i32⟩
  | .hbm, ⟨19, _⟩ => ⟨S_, .i32⟩
  | .hbm, ⟨20, _⟩ => ⟨S65536x8, .i32⟩
  | .hbm, ⟨21, _⟩ => ⟨S65536x8, .i1⟩
  | .hbm, ⟨22, _⟩ => ⟨S_, .i32⟩
  | .hbm, ⟨23, _⟩ => ⟨S65536x8, .i32⟩
  | .hbm, ⟨24, _⟩ => ⟨S65536x8, .i32⟩
  | .hbm, ⟨25, _⟩ => ⟨S65536x8, .i32⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S8, .i32⟩
  | .hbm, ⟨33, _⟩ => ⟨S65536x8, .i32⟩
  | .hbm, ⟨34, _⟩ => ⟨S65536x8x1, .i32⟩
  | .hbm, ⟨35, _⟩ => ⟨S65536x8x1, .i32⟩
  | .hbm, ⟨36, _⟩ => ⟨S65536x8x2, .i32⟩
  | .hbm, ⟨37, _⟩ => ⟨S512x65536x8, .f32⟩
  | .hbm, ⟨38, _⟩ => ⟨S_, .f32⟩
  | .hbm, ⟨39, _⟩ => ⟨S512x65536, .f32⟩
  | .hbm, ⟨40, _⟩ => ⟨S512x65536, .f32⟩
  | _, _ => ⟨S512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S512x8_S512x1x8_0_2 : S512x8.BroadcastsInDim S512x1x8 (![0, 2] : Fin 2 → Fin S512x1x8.rank)
  bcast_S4x8_S1x4x8_1_2 : S4x8.BroadcastsInDim S1x4x8 (![1, 2] : Fin 2 → Fin S1x4x8.rank)
  bcast_S512x1x8_S512x4x8_0_1_2 : S512x1x8.BroadcastsInDim S512x4x8 (![0, 1, 2] : Fin 3 → Fin S512x4x8.rank)
  bcast_S1x4x8_S512x4x8_0_1_2 : S1x4x8.BroadcastsInDim S512x4x8 (![0, 1, 2] : Fin 3 → Fin S512x4x8.rank)
  bcast_S_S4x8 : S_.BroadcastsInDim S4x8 (![] : Fin 0 → Fin S4x8.rank)
  bcast_S_S65536x8 : S_.BroadcastsInDim S65536x8 (![] : Fin 0 → Fin S65536x8.rank)
  bcast_S_S8 : S_.BroadcastsInDim S8 (![] : Fin 0 → Fin S8.rank)
  bcast_S8_S65536x8_1 : S8.BroadcastsInDim S65536x8 (![1] : Fin 1 → Fin S65536x8.rank)
  bcast_S65536x8_S65536x8x1_0_1 : S65536x8.BroadcastsInDim S65536x8x1 (![0, 1] : Fin 2 → Fin S65536x8x1.rank)
  concatenates_S65536x8x1_S65536x8x1_S65536x8x2_d2 : Shape.Concatenates [S65536x8x1, S65536x8x1] S65536x8x2 2
  reducesTo_S512x65536x8_S512x65536_d2 : S512x65536x8.ReducesTo [2] S512x65536
  h_S_ : 0 < S_.numel
  gather_S512x4x8_S65536x8x2_S512x65536x8_0_12_n_n_12_2_51211_wf : GatherDims.WF S512x4x8 S65536x8x2 S512x65536x8 [0] [1, 2] [] [1, 2] [] 2 ![512, 1, 1]

variable [Facts₀]

def gather_S512x4x8_S65536x8x2_S512x65536x8_0_12_n_n_12_2_51211 : GatherDims S512x4x8 S65536x8x2 S512x65536x8 where
  offsetDims := [0]
  collapsedSliceDims := [1, 2]
  operandBatchingDims := []
  startIndicesBatchingDims := []
  startIndexMap := [1, 2]
  indexVectorDim := 2
  sliceSizes := ![512, 1, 1]
  wf := gather_S512x4x8_S65536x8x2_S512x65536x8_0_12_n_n_12_2_51211_wf

class Facts : Prop extends Facts₀ where

variable [Facts]
-- ==== Proof.SelectorLaws.lean ====
/-
  The two laws the equivalence rests on, stated away from either program.

  WORDS. A rule's fuzzy-set index is a signed 32-bit word `v`. For `v ≥ 0` clipping it into `[0, 3]`
  (`min 3 (max 0 v)`) gives the number `min v 3`; that is also the clamped start a gather along an axis of extent 4
  reads for the start index `v`, and a Python-style wrap of negative indices (`v < 0 ↦ v + 4`) leaves such a `v`
  alone. So under `v ≥ 0` both ways of turning `v` into a fuzzy set agree on `setOf v`.

  SUMS. Let `k = 4·d + f` number the pairs (feature `d` of 8, fuzzy set `f` of 4). A row `a` weighted by the 0/1 selector
  "`f` is the set chosen for feature `d`" sums to the chosen entries: `∑ₖ a k · [f = c d] = ∑_d a (4·d + c d)`. On the
  extended reals `x · 1 = x` and `x · 0 = 0` hold for EVERY `x`, infinite ones included, and addition is commutative
  and associative, so no finiteness is used.
-/
import Idealize.ShloMosaic.PureOps.Ideal
import Idealize.ShloMosaic.Lib.StableHlo.Predicate
import Idealize.ShloMosaic.Lib.ValueIdx
import Mathlib.Algebra.BigOperators.Fin

noncomputable section

open scoped BigOperators

namespace Cert.Antecedent

open Idealize.ShloMosaic

/-! ## Words -/

/-- The fuzzy set a non-negative index word selects: the word, capped at the last set. -/
def setOf (v : BitVec 32) : Fin 4 := ⟨min v.toInt.toNat 3, by omega⟩

/-- "`v ≥ 0`" as the signed comparison prints it. -/
theorem nonneg_of_sge {v : BitVec 32} (hv : IntOp.cmpi .sge v 0#32 = 1#1) : 0 ≤ v.toInt := by
  unfold IntOp.cmpi at hv
  have h := (StableHlo.Predicate.ofBool_eq_one_iff _).mp hv
  have h0 : (0#32 : BitVec 32).toInt = 0 := by decide
  simpa [BitVec.sle, h0] using h

/-- A non-negative signed word is its unsigned value. -/
theorem toInt_eq_toNat {v : BitVec 32} (h : 0 ≤ v.toInt) : v.toInt = (v.toNat : ℤ) := by
  have hlt : 2 * v.toNat < 2 ^ 32 := by
    by_contra hc
    rw [BitVec.toInt_eq_toNat_cond, if_neg hc] at h
    have := v.isLt
    omega
  rw [BitVec.toInt_eq_toNat_cond, if_pos hlt]

/-- Clipping a non-negative word into `[0, 3]` gives the capped value. -/
theorem clip_toNat {v : BitVec 32} (h : 0 ≤ v.toInt) :
    (IntOp.minsi 3#32 (IntOp.maxsi 0#32 v)).toNat = (setOf v).val := by
  have h0 : (0#32 : BitVec 32).toInt = 0 := by decide
  have h3 : (3#32 : BitVec 32).toInt = 3 := by decide
  have hn := toInt_eq_toNat h
  have hmax : IntOp.maxsi 0#32 v = v := by
    unfold IntOp.maxsi
    rw [if_neg]
    simp only [BitVec.slt, h0, decide_eq_true_eq]
    omega
  rw [hmax]
  unfold IntOp.minsi setOf
  split <;> rename_i hc <;> simp only [BitVec.slt, h3, hn, decide_eq_true_eq] at hc
  · show (3#32 : BitVec 32).toNat = min v.toInt.toNat 3
    rw [hn, Int.toNat_natCast]
    have : (3#32 : BitVec 32).toNat = 3 := by decide
    omega
  · show v.toNat = min v.toInt.toNat 3
    rw [hn, Int.toNat_natCast]
    omega

/-- The clipped word equals the set number `f` exactly when `f` is the selected set. -/
theorem clip_eq_iff {v : BitVec 32} (h : 0 ≤ v.toInt) (f : Fin 4) :
    IntOp.minsi 3#32 (IntOp.maxsi 0#32 v) = BitVec.ofNat 32 f.val ↔ f = setOf v := by
  have hc := clip_toNat h
  have hf : (BitVec.ofNat 32 f.val).toNat = f.val := by
    rw [BitVec.toNat_ofNat]; have := f.isLt; omega
  constructor
  · intro e
    apply Fin.ext
    rw [← hc, e, hf]
  · intro e
    apply BitVec.eq_of_toNat_eq
    rw [hc, hf, e]

/-- The wrap of negative indices (`v < 0 ↦ w`, whatever `w` is) leaves a non-negative word alone. -/
theorem wrap_eq {v : BitVec 32} (h : 0 ≤ v.toInt) (w : BitVec 32) :
    Scalar.select (IntOp.cmpi .slt v 0#32) w v = v := by
  have h0 : (0#32 : BitVec 32).toInt = 0 := by decide
  have hb : IntOp.cmpi .slt v 0#32 = 0#1 := by
    unfold IntOp.cmpi
    have : v.slt 0#32 = false := by
      simp only [BitVec.slt, h0, decide_eq_false_iff_not]; omega
    rw [this]; rfl
  rw [hb]
  exact if_neg (by decide)

/-- The 0/1 selector as the kernel builds it: a one-bit comparison result widened to a word and read as a number. -/
theorem bit_to_real (b : BitVec 1) : (((b.setWidth 32).toInt : ℝ) : EReal) = if b = 1#1 then 1 else 0 := by
  rcases BitVec.eq_zero_or_eq_one b with hb | hb <;> subst hb
  · have : ((0#1 : BitVec 1).setWidth 32).toInt = 0 := by decide
    rw [this, if_neg (by decide)]; simp
  · have : ((1#1 : BitVec 1).setWidth 32).toInt = 1 := by decide
    rw [this, if_pos rfl]; simp

/-! ## Sums -/

/-- Feature and fuzzy set of a column number `k = 4·d + f`. -/
def featOf (k : Fin 32) : Fin 8 := ⟨k.val / 4, by omega⟩
def fsetOf (k : Fin 32) : Fin 4 := ⟨k.val % 4, by omega⟩
/-- The column of a (feature, set) pair. -/
def colOf (d : Fin 8) (f : Fin 4) : Fin 32 := ⟨4 * d.val + f.val, by omega⟩

theorem featOf_colOf (d : Fin 8) (f : Fin 4) : featOf (colOf d f) = d := Fin.ext (by simp only [featOf, colOf]; omega)
theorem fsetOf_colOf (d : Fin 8) (f : Fin 4) : fsetOf (colOf d f) = f := Fin.ext (by simp only [fsetOf, colOf]; omega)

/-- Columns are (feature, set) pairs. -/
def colEquiv : Fin 8 × Fin 4 ≃ Fin 32 where
  toFun p := colOf p.1 p.2
  invFun k := (featOf k, fsetOf k)
  left_inv p := by simp only [featOf_colOf, fsetOf_colOf]
  right_inv k := Fin.ext (by simp only [colOf, featOf, fsetOf]; omega)

/-- A row weighted by the one-hot selector of the chosen sets sums to the chosen entries, on all extended reals. -/
theorem sum_onehot (a : Fin 32 → EReal) (c : Fin 8 → Fin 4) :
    ∑ k : Fin 32, a k * (if fsetOf k = c (featOf k) then (1 : EReal) else 0) = ∑ d : Fin 8, a (colOf d (c d)) := by
  rw [← Equiv.sum_comp colEquiv, Fintype.sum_prod_type]
  refine Finset.sum_congr rfl fun d _ => ?_
  show ∑ f : Fin 4, a (colOf d f) * (if fsetOf (colOf d f) = c (featOf (colOf d f)) then (1 : EReal) else 0) = _
  simp only [featOf_colOf, fsetOf_colOf, mul_ite, mul_one, mul_zero]
  rw [Finset.sum_ite_eq' Finset.univ (c d) fun f => a (colOf d f), if_pos (Finset.mem_univ _)]

/-! ## The specification -/

/-- THE FIRING STRENGTHS: from the log-memberships `L[s, f, d]` and the rule table `fs[r, d]`, rule `r` fires on sample
    `s` with strength `exp (∑_d L[s, setOf fs[r,d], d])` — the product over the features of the memberships of the
    rule's fuzzy sets, computed in log space. Both programs are proved to compute this function. -/
def firing (L : (⟨3, ![512, 4, 8]⟩ : Shape).Idx → EReal) (fs : (⟨2, ![65536, 8]⟩ : Shape).Idx → BitVec 32) :
    (⟨2, ![512, 65536]⟩ : Shape).Idx → EReal :=
  fun i => Ideal.exp (∑ d : Fin 8, L (ValueIdx.ix3 (i 0) (setOf (fs (ValueIdx.ix2 (i 1) d))) d))

end Cert.Antecedent

end
-- ==== Proof.Domain.lean ====
/-
  The precondition read back: besides the three float arguments being finite it says that every entry of the rule table
  is non-negative (`jnp.all(fs_ind >= 0)`), and that conjunct is the only one the equivalence uses. The predicate is a
  conjunction of whole-array `and`-reductions; its last conjunct is the reduction of the signed comparisons
  `fs[r, d] ≥ 0`, so when the predicate is 1 every comparison is 1.
-/
import proofs.«411100_j46222438039892_3_alg».proof.Pre_finite_inputs
import proofs.«411100_j46222438039892_3_alg».proof.Proof.SelectorLaws
import Idealize.ShloMosaic.Lib.ReduceAll
import Idealize.ShloMosaic.Lib.ValueIdx

noncomputable section

namespace Cert.Pre_finite_inputs.Domain

open Cert.Pre_finite_inputs Idealize.ShloMosaic Cert.Antecedent

variable {F : FTy → Type} [FloatOps F] [Cert.Pre_finite_inputs.Facts]

/-- The scalar shape has one index. -/
instance : Subsingleton S_.Idx := ⟨fun a b => funext fun d => d.elim0⟩

/-- Under the precondition every entry of the rule table is a non-negative signed word. -/
theorem table_nonneg (a0 : FVec F S512x8 .f32) (a1 a2 : FVec F S4x8 .f32) (a3 : IVec S65536x8 32)
    (h : fn (F := F) a0 a1 a2 a3 = fun _ => 1#1) (j : S65536x8.Idx) : 0 ≤ (a3 j).toInt := by
  have h0 := congrFun h ValueIdx.ix0
  dsimp only [fn, fn_part1] at h0
  have h1 := (IntOp.andi_eq_one.1 (show IntOp.andi _ _ = 1#1 from h0)).2
  have h2 := Host.reduce_andi_all _ _ _ _ _ h1 j
  exact nonneg_of_sge h2

end Cert.Pre_finite_inputs.Domain

end
-- ==== Proof.ReferenceValue.lean ====
/-
  What the reference computes, as one formula.

  The reference forms the log-memberships `L[s, f, d] = -(x[s,d] - c[f,d])² / (2·σ[f,d]²)`, gathers
  `L[s, fs[r,d], d]` with a two-component start index (fuzzy set, feature) per (rule `r`, feature `d`), sums over
  the 8 features and exponentiates. The first index column is the rule table after the wrap of negative entries, the
  second is the feature number itself; the gather clamps each start into its axis. For a table with no negative
  entry the set read is `setOf fs[r,d]` and the feature read is `d`, so

      reference[s, r] = exp (∑_d L[s, setOf fs[r,d], d]).
-/
import proofs.«411100_j46222438039892_3_alg».proof.Proof.Gen.ReferenceIdeal.Read
import proofs.«411100_j46222438039892_3_alg».proof.Proof.SelectorLaws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Antecedent

/-- The gather's dimension numbers: operand `[512, 4, 8]`, start indices `[65536, 8, 2]`, result `[512, 65536, 8]`;
    axis 0 is copied whole, axes 1 and 2 are addressed by the two components of the start index. -/
abbrev gd : GatherDims S512x4x8 S65536x8x2 S512x65536x8 := gather_S512x4x8_S65536x8x2_S512x65536x8_0_12_n_n_12_2_51211

/-- The start-indices index at which result index `(s, r, d)` reads component `c` of its start index: `(r, d, c)`. -/
theorem siIdx_eq (s : Fin 512) (r : Fin 65536) (d : Fin 8) (a : Fin 3) (ha : a ∈ gd.startIndexMap) :
    gd.siIdx (ix3 s r d) ⟨gd.startIndexMap.idxOf a, List.idxOf_lt_length_iff.2 ha⟩
      = ix3 r d ⟨gd.startIndexMap.idxOf a, by
          have := List.idxOf_lt_length_iff.2 ha
          exact this⟩ := by
  funext b; refine Fin.ext ?_
  match b with
  | ⟨0, _⟩ => rfl
  | ⟨1, _⟩ => rfl
  | ⟨2, _⟩ => rfl

/-- THE GATHER READ AT `(s, r, d)`: row `s` of the operand at the two start components of `(r, d)`, each read signed and
    clamped into its axis. -/
theorem gather_apply {α : Type} (x : S512x4x8.Idx → α) (idx : IVec S65536x8x2 32) (s : Fin 512) (r : Fin 65536) (d : Fin 8) :
    Host.gather gd x idx (ix3 s r d)
      = x (ix3 s ⟨min (idx (ix3 r d (0 : Fin 2))).toInt.toNat 3, by omega⟩ ⟨min (idx (ix3 r d (1 : Fin 2))).toInt.toNat 7, by omega⟩) := by
  unfold Host.gather
  congr 1
  funext a
  refine Fin.ext ?_
  have hb : ∀ a : Fin 3, gd.batchCoord (ix3 s r d) a = 0 := fun a => gd.batchCoord_eq_zero _ _ List.not_mem_nil
  show gd.start (ix3 s r d) idx a + gd.batchCoord (ix3 s r d) a + gd.offCoord (ix3 s r d) a = _
  rw [hb a, Nat.add_zero]
  match a with
  | ⟨0, _⟩ =>
    have h0 : gd.start (ix3 s r d) idx (0 : Fin 3) = 0 := by
      unfold GatherDims.start; rw [dif_neg (by decide)]
    have h1 : gd.offCoord (ix3 s r d) (0 : Fin 3) = s.val := by
      unfold GatherDims.offCoord; rw [dif_pos (by decide)]; rfl
    show gd.start (ix3 s r d) idx (0 : Fin 3) + gd.offCoord (ix3 s r d) (0 : Fin 3) = s.val
    rw [h0, h1, Nat.zero_add]
  | ⟨1, _⟩ =>
    have h1 : gd.offCoord (ix3 s r d) (1 : Fin 3) = 0 :=
      gd.offCoord_eq_zero _ _ (fun h => ((gd.mem_sKept _).mp h).1 (by decide))
    have hm : (1 : Fin 3) ∈ gd.startIndexMap := by decide
    show gd.start (ix3 s r d) idx (1 : Fin 3) + gd.offCoord (ix3 s r d) (1 : Fin 3) = min (idx (ix3 r d (0 : Fin 2))).toInt.toNat 3
    rw [h1, Nat.add_zero]
    unfold GatherDims.start
    rw [dif_pos hm, siIdx_eq s r d 1 hm]
    rfl
  | ⟨2, _⟩ =>
    have h1 : gd.offCoord (ix3 s r d) (2 : Fin 3) = 0 :=
      gd.offCoord_eq_zero _ _ (fun h => ((gd.mem_sKept _).mp h).1 (by decide))
    have hm : (2 : Fin 3) ∈ gd.startIndexMap := by decide
    show gd.start (ix3 s r d) idx (2 : Fin 3) + gd.offCoord (ix3 s r d) (2 : Fin 3) = min (idx (ix3 r d (1 : Fin 2))).toInt.toNat 7
    rw [h1, Nat.add_zero]
    unfold GatherDims.start
    rw [dif_pos hm, siIdx_eq s r d 2 hm]
    rfl

/-! ## The two columns of the start indices -/

/-- Column 0 of the start index of `(r, d)`: the rule table's entry with negative values wrapped. -/
theorem start_set (x3 : (⟨S65536x8, .i32⟩ : BufTy).Contents (Elt Ideal)) (r : Fin 65536) (d : Fin 8) :
    val_main_v27 (F := Ideal) x3 (ix3 r d (0 : Fin 2))
      = Scalar.select (IntOp.cmpi .slt (x3 (ix2 r d)) 0#32) (IntOp.addi (x3 (ix2 r d)) 4#32) (x3 (ix2 r d)) := by
  unfold val_main_v27
  rw [concatenate_pair_apply_left (t := S65536x8x2) (s₁ := S65536x8x1) (s₂ := S65536x8x1) (2 : Fin 3) _ _
    concatenates_S65536x8x1_S65536x8x1_S65536x8x2_d2 (ix3 r d (0 : Fin 2)) rfl
    (ix3 r d (0 : Fin 1)) (fun b => match b with | ⟨0, _⟩ => rfl | ⟨1, _⟩ => rfl | ⟨2, _⟩ => rfl)]
  have e : idx_main_v25 (ix3 r d (0 : Fin 1)) = ix2 r d :=
    funext fun a => Fin.ext (by match a with | ⟨0, _⟩ => rfl | ⟨1, _⟩ => rfl)
  rw [val_main_v25_apply, e, val_main_v18_apply, val_main_v15_apply, val_main_v17_apply, val_main_v14_apply,
    val_main_v16_apply, val_main_c_apply, val_main_c_0_apply]

/-- Column 1 of the start index of `(r, d)`: the feature number `d` (an iota, which the wrap of negatives leaves alone). -/
theorem start_feat (x3 : (⟨S65536x8, .i32⟩ : BufTy).Contents (Elt Ideal)) (r : Fin 65536) (d : Fin 8) :
    val_main_v27 (F := Ideal) x3 (ix3 r d (1 : Fin 2)) = BitVec.ofNat 32 d.val := by
  unfold val_main_v27
  rw [concatenate_pair_apply_right (t := S65536x8x2) (s₁ := S65536x8x1) (s₂ := S65536x8x1) (2 : Fin 3) _ _
    concatenates_S65536x8x1_S65536x8x1_S65536x8x2_d2 (ix3 r d (1 : Fin 2)) rfl rfl
    (ix3 r d (0 : Fin 1)) (fun b hb => match b with | ⟨0, _⟩ => rfl | ⟨1, _⟩ => rfl | ⟨2, _⟩ => absurd rfl hb) rfl]
  have e1 : idx_main_v24 (idx_main_v26 (ix3 r d (0 : Fin 1))) = ix1 d :=
    funext fun a => Fin.ext (by match a with | ⟨0, _⟩ => rfl)
  have hd : 0 ≤ (BitVec.ofNat 32 d.val).toInt := by
    rw [StableHlo.Predicate.toInt_ofNat_small d.val (by have := d.isLt; omega)]; omega
  rw [val_main_v26_apply, val_main_v24_apply, e1, val_main_v23_apply, val_main_v20_apply, val_main_v13_apply,
    val_main_v19_apply, val_main_c_1_apply]
  exact wrap_eq hd _

/-! ## The reference's result -/

/-- The log-memberships `L[s, f, d]` of the three float arguments, as the reference computes them. -/
abbrev logMember (x0 : (⟨S512x8, .f32⟩ : BufTy).Contents (Elt Ideal)) (x1 x2 : (⟨S4x8, .f32⟩ : BufTy).Contents (Elt Ideal)) :
    S512x4x8.Idx → EReal := val_main_v12 (F := Ideal) x0 x1 x2

/-- For a rule table with no negative entry, `reference[s, r] = exp (∑_d L[s, setOf fs[r,d], d])`. -/
theorem result_apply (x0 : (⟨S512x8, .f32⟩ : BufTy).Contents (Elt Ideal)) (x1 x2 : (⟨S4x8, .f32⟩ : BufTy).Contents (Elt Ideal))
    (x3 : (⟨S65536x8, .i32⟩ : BufTy).Contents (Elt Ideal)) (hfs : ∀ j, 0 ≤ (x3 j).toInt) (s : Fin 512) (r : Fin 65536) :
    val_main_v30 (F := Ideal) x0 x1 x2 x3 (ix2 s r)
      = Ideal.exp (∑ d : Fin 8, logMember x0 x1 x2 (ix3 s (setOf (x3 (ix2 r d))) d)) := by
  rw [val_main_v30_apply, val_main_v29_apply, val_main_cst_3_apply]
  simp only [Ideal.hostUnary_exp_def]
  rw [show (FloatOps.ofBits (F := Ideal) .f32 0x00000000#32 : EReal) = 0 from Ideal.ofBits_zero_f32, zero_add]
  congr 1
  refine Finset.sum_congr rfl fun d _ => ?_
  have e : idx_main_v29 (ix2 s r) d = ix3 s r d :=
    funext fun a => Fin.ext (by match a with | ⟨0, _⟩ => rfl | ⟨1, _⟩ => rfl | ⟨2, _⟩ => rfl)
  unfold val_main_v28
  rw [e, gather_apply]
  refine congrArg (logMember x0 x1 x2) (funext fun a => Fin.ext ?_)
  match a with
  | ⟨0, _⟩ => rfl
  | ⟨1, _⟩ =>
    show min (val_main_v27 (F := Ideal) x3 (ix3 r d (0 : Fin 2))).toInt.toNat 3 = (setOf (x3 (ix2 r d))).val
    rw [start_set, wrap_eq (hfs _)]
    rfl
  | ⟨2, _⟩ =>
    show min (val_main_v27 (F := Ideal) x3 (ix3 r d (1 : Fin 2))).toInt.toNat 7 = d.val
    rw [start_feat, StableHlo.Predicate.toInt_ofNat_small d.val (by have := d.isLt; omega), Int.toNat_natCast]
    have := d.isLt
    omega

end Cert.ReferenceIdeal.RefValue

end
-- ==== Proof.KernelBody.lean ====
/-
  What one grid step of the kernel stores, at an index.

  The body loads the whole log-membership matrix `A : [512, 32]` (column `k = 4·d + f` holds `L[·, f, d]`) and one
  `[8, 8192]` tile `T` of the clipped, transposed rule table. It builds the selector `B[4·d + f, r] = 1` if `T[d, r] = f`
  and `0` otherwise — a comparison against an iota along the fuzzy-set axis, widened to a number and re-laid from
  `[8, 4, 8192]` to `[32, 8192]` — multiplies `A · B` into a zero accumulator and exponentiates. On the extended reals
  the product is the plain sum over the 32 columns, so

      stored[s, r] = exp (∑ₖ A[s, k] · [T[featOf k, r] = fsetOf k]).
-/
import proofs.«411100_j46222438039892_3_alg».proof.Proof.Gen.KernelIdeal.Skeleton
import proofs.«411100_j46222438039892_3_alg».proof.Proof.SelectorLaws
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Antecedent

/-! ## The product's operand indices: row `s` of `A` against column `r` of `B`, along the one contracted axis -/

theorem lhs_axis0 (i : S512x8192.Idx) (q : dot_S512x32_S32x8192_S512x8192_1_0_0_1_n_n.contr.Idx) :
    (dot_S512x32_S32x8192_S512x8192_1_0_0_1_n_n.lhsIdx i q 0).val = (i 0).val := by
  unfold DotDims.lhsIdx
  rw [dif_neg (show ¬(0 : Fin S512x32.rank) ∈ dot_S512x32_S32x8192_S512x8192_1_0_0_1_n_n.lhsBatch by decide),
    dif_pos (show (0 : Fin S512x32.rank) ∈ dot_S512x32_S32x8192_S512x8192_1_0_0_1_n_n.lhsNonContracting by decide)]
  rfl
theorem lhs_axis1 (i : S512x8192.Idx) (q : dot_S512x32_S32x8192_S512x8192_1_0_0_1_n_n.contr.Idx) :
    (dot_S512x32_S32x8192_S512x8192_1_0_0_1_n_n.lhsIdx i q 1).val = (q ⟨0, by decide⟩).val :=
  dot_S512x32_S32x8192_S512x8192_1_0_0_1_n_n.lhsIdx_val_of_single rfl i q
theorem rhs_axis0 (i : S512x8192.Idx) (q : dot_S512x32_S32x8192_S512x8192_1_0_0_1_n_n.contr.Idx) :
    (dot_S512x32_S32x8192_S512x8192_1_0_0_1_n_n.rhsIdx i q 0).val = (q ⟨0, by decide⟩).val :=
  dot_S512x32_S32x8192_S512x8192_1_0_0_1_n_n.rhsIdx_val_of_single rfl i q
theorem rhs_axis1 (i : S512x8192.Idx) (q : dot_S512x32_S32x8192_S512x8192_1_0_0_1_n_n.contr.Idx) :
    (dot_S512x32_S32x8192_S512x8192_1_0_0_1_n_n.rhsIdx i q 1).val = (i 1).val := by
  unfold DotDims.rhsIdx
  rw [dif_neg (show ¬(1 : Fin S32x8192.rank) ∈ dot_S512x32_S32x8192_S512x8192_1_0_0_1_n_n.rhsBatch by decide),
    dif_pos (show (1 : Fin S32x8192.rank) ∈ dot_S512x32_S32x8192_S512x8192_1_0_0_1_n_n.rhsNonContracting by decide)]
  rfl

/-- The product into a zero accumulator, at `(s, r)`: the sum over the 32 columns. -/
theorem product_apply (a : FVec Ideal S512x32 .f32) (b : FVec Ideal S32x8192 .bf16) (s : Fin 512) (r : Fin 8192) :
    matmul dot_S512x32_S32x8192_S512x8192_1_0_0_1_n_n (some .fp32) a b (constant S512x8192 .f32 0x00000000#32) (ix2 s r)
      = ∑ k : Fin 32, a (ix2 s k) * b (ix2 k r) := by
  show FloatOps.matmul dot_S512x32_S32x8192_S512x8192_1_0_0_1_n_n (some .fp32) a b (constant S512x8192 .f32 0x00000000#32) (ix2 s r) = _
  rw [Ideal.matmul_constant_zero_apply, ← Equiv.sum_comp (contrEquiv1 dot_S512x32_S32x8192_S512x8192_1_0_0_1_n_n 32 rfl rfl).symm]
  refine Finset.sum_congr rfl fun k _ => ?_
  have hk := contrEquiv1_symm_val dot_S512x32_S32x8192_S512x8192_1_0_0_1_n_n 32 rfl rfl k
  have el : dot_S512x32_S32x8192_S512x8192_1_0_0_1_n_n.lhsIdx (ix2 s r)
      ((contrEquiv1 dot_S512x32_S32x8192_S512x8192_1_0_0_1_n_n 32 rfl rfl).symm k) = ix2 s k := funext fun a => Fin.ext (by
    match a with
    | ⟨0, _⟩ => exact lhs_axis0 _ _
    | ⟨1, _⟩ => exact (lhs_axis1 _ _).trans hk)
  have er : dot_S512x32_S32x8192_S512x8192_1_0_0_1_n_n.rhsIdx (ix2 s r)
      ((contrEquiv1 dot_S512x32_S32x8192_S512x8192_1_0_0_1_n_n 32 rfl rfl).symm k) = ix2 k r := funext fun a => Fin.ext (by
    match a with
    | ⟨0, _⟩ => exact (rhs_axis0 _ _).trans hk
    | ⟨1, _⟩ => exact rhs_axis1 _ _)
  rw [el, er]

/-! ## The selector matrix -/

/-- The selector as the body builds it from the table tile `T`. -/
def selector (T : Vec Ideal S8x8192 .i32) : FVec Ideal S32x8192 .bf16 :=
  shapeCast S32x8192
    (truncf .bf16
      (sitofp .f32
        (extui 32
          (cmpi .eq
            (broadcastTo S8x4x8192 (shapeCast S8x1x8192 (shapeCast S8x8192 T shapeCasts_S8x8192_S8x8192) shapeCasts_S8x8192_S8x1x8192)
              broadcasts_S8x1x8192_S8x4x8192)
            (broadcastTo S8x4x8192 (iota .tc S1x4x1 32 [1] iota_S1x4x1_d1_w32) broadcasts_S1x4x1_S8x4x8192))
          natLt_1_32))
      bitsLt_bf16_f32)
    shapeCasts_S8x4x8192_S32x8192

/-- Entry `(k, r)` of the selector: `1` if the tile's word for feature `featOf k` at `r` is the set number `fsetOf k`, else `0`. -/
theorem selector_apply (T : Vec Ideal S8x8192 .i32) (k : Fin 32) (r : Fin 8192) :
    selector T (ix2 k r) = if T (ix2 (featOf k) r) = BitVec.ofNat 32 (fsetOf k).val then (1 : EReal) else 0 := by
  unfold selector
  refine (shapeCast_apply _ shapeCasts_S8x4x8192_S32x8192 (ix2 k r) (ix3 (featOf k) (fsetOf k) r) ?_).trans ?_
  · rw [Shape.rowMajor_val_three, Shape.rowMajor_val_two]
    show ((featOf k).val * 4 + (fsetOf k).val) * 8192 + r.val = k.val * 8192 + r.val
    simp only [featOf, fsetOf]; omega
  · have e6 : broadcastTo S8x4x8192 (shapeCast S8x1x8192 (shapeCast S8x8192 T shapeCasts_S8x8192_S8x8192) shapeCasts_S8x8192_S8x1x8192)
          broadcasts_S8x1x8192_S8x4x8192 (ix3 (featOf k) (fsetOf k) r) = T (ix2 (featOf k) r) := by
      refine (broadcastTo_apply _ broadcasts_S8x1x8192_S8x4x8192 _ (ix3 (featOf k) (0 : Fin 1) r) (fun a => ?_)).trans ?_
      · match a with
        | ⟨0, _⟩ => rfl
        | ⟨1, _⟩ => rfl
        | ⟨2, _⟩ => rfl
      · rw [shapeCast_self]
        refine shapeCast_apply _ shapeCasts_S8x8192_S8x1x8192 _ (ix2 (featOf k) r) ?_
        rw [Shape.rowMajor_val_three, Shape.rowMajor_val_two]
        show (featOf k).val * 8192 + r.val = ((featOf k).val * 1 + 0) * 8192 + r.val
        omega
    have e7 : broadcastTo S8x4x8192 (iota .tc S1x4x1 32 [1] iota_S1x4x1_d1_w32) broadcasts_S1x4x1_S8x4x8192 (ix3 (featOf k) (fsetOf k) r)
        = BitVec.ofNat 32 (fsetOf k).val := by
      refine (broadcastTo_apply _ broadcasts_S1x4x1_S8x4x8192 _ (ix3 (0 : Fin 1) (fsetOf k) (0 : Fin 1)) (fun a => ?_)).trans ?_
      · match a with
        | ⟨0, _⟩ => rfl
        | ⟨1, _⟩ => rfl
        | ⟨2, _⟩ => rfl
      · exact iota_single_apply .tc S1x4x1 32 1 iota_S1x4x1_d1_w32 _
    show ((((IntOp.cmpi .eq (broadcastTo S8x4x8192 (shapeCast S8x1x8192 (shapeCast S8x8192 T shapeCasts_S8x8192_S8x8192) shapeCasts_S8x8192_S8x1x8192)
          broadcasts_S8x1x8192_S8x4x8192 (ix3 (featOf k) (fsetOf k) r))
        (broadcastTo S8x4x8192 (iota .tc S1x4x1 32 [1] iota_S1x4x1_d1_w32) broadcasts_S1x4x1_S8x4x8192 (ix3 (featOf k) (fsetOf k) r))).setWidth 32).toInt : ℝ) : EReal) = _
    rw [e6, e7, bit_to_real]
    exact if_congr StableHlo.Predicate.cmpi_eq_iff rfl rfl

/-! ## The stored value -/

/-- The body's one store, at `(s, r)`, from the loaded matrix `A` and table tile `T`. -/
theorem stored_apply (A : Vec Ideal S512x32 .f32) (T : Vec Ideal S8x8192 .i32) (s : Fin 512) (r : Fin 8192) :
    k0_pay1 (F := Ideal) A T (ix2 s r)
      = Ideal.exp (∑ k : Fin 32, A (ix2 s k) * (if T (ix2 (featOf k) r) = BitVec.ofNat 32 (fsetOf k).val then (1 : EReal) else 0)) := by
  show FloatOps.exp (matmul dot_S512x32_S32x8192_S512x8192_1_0_0_1_n_n (some .fp32) (shapeCast S512x32 A shapeCasts_S512x32_S512x32)
    (selector T) (constant S512x8192 .f32 0x00000000#32) (ix2 s r)) = _
  rw [Ideal.exp_def, product_apply, shapeCast_self]
  simp only [selector_apply]

/-! ## The stored value is a block of the firing strengths -/

/-- If the loaded matrix holds the log-memberships column-wise (`A[s, 4·d + f] = L[s, f, d]`) and the loaded tile is
    block `t` of the clipped, transposed table of a rule table with no negative entry, then what the step stores at
    `(s, r)` is the firing strength of rule `8192·t + r` on sample `s`: the one-hot sum law picks, for each feature, the
    membership of the rule's set. -/
theorem stored_eq_firing (A : Vec Ideal S512x32 .f32) (T : Vec Ideal S8x8192 .i32)
    (L : S512x4x8.Idx → EReal) (fs : S65536x8.Idx → BitVec 32) (hfs : ∀ j, 0 ≤ (fs j).toInt) (t : Nat)
    (hA : ∀ (s : Fin 512) (k : Fin 32), A (ix2 s k) = L (ix3 s (fsetOf k) (featOf k)))
    (hT : ∀ (d : Fin 8) (r : Fin 8192) (R : Fin 65536), R.val = t * 8192 + r.val →
      T (ix2 d r) = IntOp.minsi 3#32 (IntOp.maxsi 0#32 (fs (ix2 R d))))
    (y : S512x8192.Idx) (i : S512x65536.Idx) (hi0 : (i 0).val = (y 0).val) (hi1 : (i 1).val = t * 8192 + (y 1).val) :
    k0_pay1 (F := Ideal) A T y = firing L fs i := by
  obtain ⟨s, r, rfl⟩ : ∃ (s : Fin 512) (r : Fin 8192), y = ix2 s r := ⟨y 0, y 1, eq_ix2 y⟩
  have hs : i 0 = s := Fin.ext hi0
  rw [stored_apply]
  unfold firing
  congr 1
  have hsel : ∀ k : Fin 32,
      (if T (ix2 (featOf k) r) = BitVec.ofNat 32 (fsetOf k).val then (1 : EReal) else 0)
        = if fsetOf k = setOf (fs (ix2 (i 1) (featOf k))) then (1 : EReal) else 0 := fun k => by
    rw [hT (featOf k) r (i 1) hi1]
    exact if_congr (clip_eq_iff (hfs _) (fsetOf k)) rfl rfl
  simp only [hA, hsel]
  rw [sum_onehot (fun k => L (ix3 s (fsetOf k) (featOf k))) (fun d => setOf (fs (ix2 (i 1) d)))]
  simp only [featOf_colOf, fsetOf_colOf, hs]

end Cert.KernelIdeal.Body

end
-- ==== Proof.KernelArray.lean ====
/-
  The kernel's result array, as one formula.

  Before the grid the host code forms the log-memberships `L[s, f, d]`, lays them out as the matrix
  `A[s, 4·d + f] = L[s, f, d]` (a transpose of the last two axes, then a reshape), clips the rule table into `[0, 3]` and
  transposes it to `[8, 65536]`. Grid step `t` (of 8) loads all of `A` and columns `8192·t … 8192·t + 8191` of the table
  and stores columns `8192·t …` of the result. The 8 column blocks tile the result, so for a rule table with no negative
  entry the array ends at the firing strengths `exp (∑_d L[s, setOf fs[r,d], d])`.
-/
import proofs.«411100_j46222438039892_3_alg».proof.Proof.Gen.KernelIdeal.Value
import proofs.«411100_j46222438039892_3_alg».proof.Proof.KernelBody
import Idealize.ShloMosaic.Lib.StableHlo.Run

noncomputable section

open scoped BigOperators

namespace Cert.KernelIdeal.Arr

open Cert.KernelIdeal Cert.KernelIdeal.Gen Cert.KernelIdeal.Body Idealize.ShloMosaic Idealize.ShloMosaic.TcCoe Idealize.SL.Sem
open Idealize.ShloMosaic.ValueIdx Idealize.ShloMosaic.StableHlo Cert.Antecedent
open Idealize.ShloMosaic.Pipeline (Dat)

variable (m : (ℓ : Loc nD τ sig) → Buf (Elt Ideal) ℓ) (ρ : Dev nD → PrngReg)

/-! ## The host code before the grid -/

/-- The log-memberships `L[s, f, d] = -(x[s,d] - c[f,d])² / (2·σ[f,d]·σ[f,d])` of the three float arguments. -/
def logMember (x0 : FVec Ideal S512x8 .f32) (x1 x2 : FVec Ideal S4x8 .f32) : FVec Ideal S512x4x8 .f32 :=
  Host.divf
    (Host.negf
      (mulf
        (subf
          (broadcastInDim S512x4x8 ![0, 1, 2] bcast_S512x1x8_S512x4x8_0_1_2 (broadcastInDim S512x1x8 ![0, 2] bcast_S512x8_S512x1x8_0_2 x0))
          (broadcastInDim S512x4x8 ![0, 1, 2] bcast_S1x4x8_S512x4x8_0_1_2 (broadcastInDim S1x4x8 ![1, 2] bcast_S4x8_S1x4x8_1_2 x1)))
        (subf
          (broadcastInDim S512x4x8 ![0, 1, 2] bcast_S512x1x8_S512x4x8_0_1_2 (broadcastInDim S512x1x8 ![0, 2] bcast_S512x8_S512x1x8_0_2 x0))
          (broadcastInDim S512x4x8 ![0, 1, 2] bcast_S1x4x8_S512x4x8_0_1_2 (broadcastInDim S1x4x8 ![1, 2] bcast_S4x8_S1x4x8_1_2 x1)))))
    (broadcastInDim S512x4x8 ![0, 1, 2] bcast_S1x4x8_S512x4x8_0_1_2
      (broadcastInDim S1x4x8 ![1, 2] bcast_S4x8_S1x4x8_1_2
        (mulf (mulf (broadcastInDim S4x8 ![] bcast_S_S4x8 (constant S_ .f32 0x40000000#32)) x2) x2)))

/-- Device `c`'s log-memberships and rule table, from the arguments as launched. -/
abbrev memberships (c : Dev nD) : S512x4x8.Idx → EReal :=
  logMember (m ((c : Thread nD τ).loc main_arg0)) (m ((c : Thread nD τ).loc main_arg1)) (m ((c : Thread nD τ).loc main_arg2))
abbrev rules (c : Dev nD) : S65536x8.Idx → BitVec 32 := m ((c : Thread nD τ).loc main_arg3)

/-- The matrix the grid reads: the log-memberships with the last two axes swapped, flattened to 32 columns. -/
theorem matrix_eq (c : Dev nD) : (V m c main_v14 : S512x32.Idx → EReal)
    = shapeCast S512x32 (transpose S512x8x4 [0, 2, 1] (memberships m c) transposes_S512x4x8_S512x8x4_0_2_1) shapeCasts_S512x8x4_S512x32 := by
  dsimp only [Gen.V]
  simp only [Gen.hostOps0, Gen.hostOps0_1, Gen.hostOps0_2, List.flatten_cons, List.flatten_nil, List.append_nil, List.cons_append,
    List.nil_append]
  after_results
  rfl

/-- The table the grid reads: the rule table clipped into `[0, 3]`, transposed. -/
theorem table_eq (c : Dev nD) : (V m c main_v16 : S8x65536.Idx → BitVec 32)
    = transpose S8x65536 [1, 0]
        (minsi (broadcastInDim S65536x8 ![] bcast_S_S65536x8 (constantI S_ 32 3#32))
          (maxsi (broadcastInDim S65536x8 ![] bcast_S_S65536x8 (constantI S_ 32 0#32)) (rules m c)))
        transposes_S65536x8_S8x65536_1_0 := by
  dsimp only [Gen.V]
  simp only [Gen.hostOps0, Gen.hostOps0_1, Gen.hostOps0_2, List.flatten_cons, List.flatten_nil, List.append_nil, List.cons_append,
    List.nil_append]
  after_results
  rfl

/-- Column `k = 4·d + f` of the matrix holds `L[·, f, d]`. -/
theorem matrix_apply (c : Dev nD) (s : Fin 512) (k : Fin 32) :
    (V m c main_v14 : S512x32.Idx → EReal) (ix2 s k) = memberships m c (ix3 s (fsetOf k) (featOf k)) := by
  rw [matrix_eq]
  refine (shapeCast_apply _ shapeCasts_S512x8x4_S512x32 (ix2 s k) (ix3 s (featOf k) (fsetOf k)) ?_).trans ?_
  · rw [Shape.rowMajor_val_three, Shape.rowMajor_val_two]
    show (s.val * 8 + (featOf k).val) * 4 + (fsetOf k).val = s.val * 32 + k.val
    simp only [featOf, fsetOf]; omega
  · exact transpose_apply [0, 2, 1] _ transposes_S512x4x8_S512x8x4_0_2_1 (ix3 s (featOf k) (fsetOf k)) (ix3 s (fsetOf k) (featOf k))
      (fun b => match b with | ⟨0, _⟩ => rfl | ⟨1, _⟩ => rfl | ⟨2, _⟩ => rfl)

/-- Entry `(d, R)` of the table is the clipped rule-table entry `(R, d)`. -/
theorem table_apply (c : Dev nD) (d : Fin 8) (R : Fin 65536) :
    (V m c main_v16 : S8x65536.Idx → BitVec 32) (ix2 d R) = IntOp.minsi 3#32 (IntOp.maxsi 0#32 (rules m c (ix2 R d))) := by
  rw [table_eq]
  exact (transpose_apply [1, 0] _ transposes_S65536x8_S8x65536_1_0 (ix2 d R) (ix2 R d)
    (fun b => match b with | ⟨0, _⟩ => rfl | ⟨1, _⟩ => rfl)).trans rfl

/-! ## From the column blocks to the array -/

theorem origin : (![0, 0] : Fin 2 → Nat) = fun _ => 0 := funext fun a => by fin_cases a <;> rfl

/-- The printed index maps over the 8 grid points: the matrix is one block, the table's and the result's block `t` is
    column block `t`. -/
theorem block_index : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- WHAT GRID STEP `t` WRITES BACK is column block `t` of the firing strengths. -/
theorem flushed_eq (c : Dev nD) (hfs : ∀ j, 0 ≤ (rules m c j).toInt) (t : Fin cfg0.N) :
    (dats m 0 c).flushed 2 t = ((cfg0.win 2).blk t).view.read (Elt Ideal) (firing (memberships m c) (rules m c)) := by
  rw [Value.flushed2]
  unfold out0_2
  rw [View.canon_unit_zero origin]
  simp only [View.ld_unit_zero (S := S512x32) origin, View.ld_unit_zero (S := S8x8192) origin]
  obtain ⟨e00, e01, e10, e11, e20, e21⟩ := block_index t
  funext y
  show k0_pay1 (F := Ideal) (iblk m c 0 t) (iblk m c 1 t) y
    = firing (memberships m c) (rules m c) (((cfg0.win 2).blk t).view.emb y)
  refine stored_eq_firing (iblk m c 0 t) (iblk m c 1 t) (memberships m c) (rules m c) hfs t.val ?_ ?_ y
    (((cfg0.win 2).blk t).view.emb y) ?_ ?_
  · intro s k
    show (V m c main_v14 : S512x32.Idx → EReal) (((cfg0.win 0).blk t).view.emb (ix2 s k)) = _
    have he : ((cfg0.win 0).blk t).view.emb (ix2 s k) = ix2 s k := by
      funext a; apply Fin.ext
      match a with
      | ⟨0, _⟩ => show win0_0.index t (0 : Fin 2) * 512 + 1 * s.val = s.val; omega
      | ⟨1, _⟩ => show win0_0.index t (1 : Fin 2) * 32 + 1 * k.val = k.val; omega
    rw [he]
    exact matrix_apply m c s k
  · intro d r R hR
    show (V m c main_v16 : S8x65536.Idx → BitVec 32) (((cfg0.win 1).blk t).view.emb (ix2 d r)) = _
    have he : ((cfg0.win 1).blk t).view.emb (ix2 d r) = ix2 d R := by
      funext a; apply Fin.ext
      match a with
      | ⟨0, _⟩ => show win0_1.index t (0 : Fin 2) * 8 + 1 * d.val = d.val; omega
      | ⟨1, _⟩ => show win0_1.index t (1 : Fin 2) * 8192 + 1 * r.val = R.val; omega
    rw [he]
    exact table_apply m c d R
  · show win0_2.index t (0 : Fin 2) * 512 + 1 * (y 0).val = (y 0).val
    omega
  · show win0_2.index t (1 : Fin 2) * 8192 + 1 * (y 1).val = t.val * 8192 + (y 1).val
    omega

/-- An index of the result is in step `t`'s block iff each coordinate is in the block's range on its axis. -/
theorem mem_blk (t : Fin cfg0.N) (i : S512x65536.Idx) :
    i ∈ ((cfg0.win 2).blk t).view.set ↔ ∀ a : Fin 2, win0_2.index t a * S512x8192.size a ≤ (i a).val
      ∧ (i a).val < win0_2.index t a * S512x8192.size a + S512x8192.size a := by
  show i ∈ ((View.whole main_v17).slice (win0_2.rect t)).set ↔ _
  rw [View.set_slice_whole, Rect.mem_set_unit]
  exact Iff.rfl

/-- The 8 column blocks tile the result: column `R` is in block `R / 8192`. -/
theorem cover (i : S512x65536.Idx) : ∃ t : Fin cfg0.N, (cfg0.win 2).flush t = true ∧ i ∈ ((cfg0.win 2).blk t).view.set := by
  have hi0 : (i 0).val < 512 := (i 0).isLt
  have hi1 : (i 1).val < 65536 := (i 1).isLt
  have hN : cfg0.N = 8 := N_0
  obtain ⟨t, ht⟩ : ∃ t : Fin cfg0.N, t.val = (i 1).val / 8192 := ⟨⟨(i 1).val / 8192, by rw [hN]; omega⟩, rfl⟩
  obtain ⟨-, -, -, -, e20, e21⟩ := block_index t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 8192 ≤ (i 1).val ∧ (i 1).val < win0_2.index t (1 : Fin 2) * 8192 + 8192
    omega

/-- THE RESULT ARRAY after the run: the firing strengths. -/
theorem final (c : Dev nD) (hfs : ∀ j, 0 ≤ (rules m c j).toInt) :
    (dats m 0 c).arrAt 2 cfg0.N = firing (memberships m c) (rules m c) :=
  (dats m 0 c).arrAt_eq_of_cover 2 (firing (memberships m c) (rules m c)) (fun t _ => flushed_eq m c hfs t) cover

/-- The kernel's run, read: for rule tables with no negative entry the result array ends at the firing strengths of the
    arguments as launched, the arguments unchanged. -/
theorem run (hfs : ∀ c j, 0 ≤ (rules m c j).toInt) :
    θ_run defs (onTc (τ := τ) (main (F := Ideal))) ⟨m, fun _ => 0, ρ⟩ fun r => ∀ c : Dev nD,
      r.2.mem ((c : Thread nD τ).loc main_v17) = firing (memberships m c) (rules m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hfs c)), (h c).2⟩) (Value.run_blocks m ρ)

end Cert.KernelIdeal.Arr

end
-- ==== Proof.lean ====
/-
  A fuzzy rule base's firing strengths: a one-hot matrix product on the kernel side against a gather on the reference side.

  Both programs first form the Gaussian log-memberships `L[s, f, d] = -(x[s,d] - c[f,d])² / (2·σ[f,d]²)` of 512 samples,
  4 fuzzy sets and 8 features, by the same host operations. Rule `r` names one fuzzy set `fs[r, d]` per feature, and fires on
  sample `s` with strength `exp (∑_d L[s, fs[r,d], d])`.

  * The reference gathers `L[s, fs[r,d], d]` (negative indices wrapped, starts clamped into the axis), sums over `d` and
    exponentiates.
  * The kernel clips the table into `[0, 3]`, builds the 0/1 selector `B[4·d + f, r] = [clip fs[r,d] = f]` inside each grid
    step, multiplies the re-laid memberships `A[s, 4·d + f] = L[s, f, d]` by it and exponentiates.

  For a rule table with no negative entry (the added precondition conjunct) both index treatments read the set
  `setOf fs[r,d] = min fs[r,d] 3`; with a negative entry they differ (`-1` wraps to set 3 on one side and clips to set 0 on the
  other). The one-hot sum law `∑ₖ a k · [k selected] = ∑_d a (selected k of d)` holds on all extended reals — `x · 1 = x`,
  `x · 0 = 0`, and sums commute — so the float arguments' finiteness is not used: a zero spread, which makes a
  log-membership infinite, is covered.

  Modules: SelectorLaws (the word laws, the sum law, the specification `firing`), Domain (the precondition read back),
  ReferenceValue (the gather read at an index; the reference is `firing`), KernelBody (one grid step's store at an index),
  KernelArray (the host code before the grid; from column blocks to the array; the kernel is `firing`).
-/
import proofs.«411100_j46222438039892_3_alg».proof.Defs
import proofs.«411100_j46222438039892_3_alg».proof.Proof.Gen.Kernel
import proofs.«411100_j46222438039892_3_alg».proof.Proof.Gen.Kernel.Skeleton
import proofs.«411100_j46222438039892_3_alg».proof.Proof.Gen.Kernel.Launch
import proofs.«411100_j46222438039892_3_alg».proof.Proof.Gen.Kernel.Points
import proofs.«411100_j46222438039892_3_alg».proof.Proof.Gen.Kernel.Frame
import proofs.«411100_j46222438039892_3_alg».proof.Proof.Gen.KernelIdeal
import proofs.«411100_j46222438039892_3_alg».proof.Proof.Gen.KernelIdeal.Skeleton
import proofs.«411100_j46222438039892_3_alg».proof.Proof.Gen.KernelIdeal.Launch
import proofs.«411100_j46222438039892_3_alg».proof.Proof.Gen.KernelIdeal.Points
import proofs.«411100_j46222438039892_3_alg».proof.Proof.Gen.KernelIdeal.Frame
import proofs.«411100_j46222438039892_3_alg».proof.Proof.Gen.ReferenceIdeal
import proofs.«411100_j46222438039892_3_alg».proof.Proof.Gen.KernelIdeal.Value
import proofs.«411100_j46222438039892_3_alg».proof.Proof.Gen.ReferenceIdeal.Run
import proofs.«411100_j46222438039892_3_alg».proof.Proof.Gen.ReferenceIdeal.Read
import proofs.«411100_j46222438039892_3_alg».proof.Proof.Gen.Pre_finite_inputs
import proofs.«411100_j46222438039892_3_alg».proof.Proof.Domain
import proofs.«411100_j46222438039892_3_alg».proof.Proof.ReferenceValue
import proofs.«411100_j46222438039892_3_alg».proof.Proof.KernelArray
import Idealize.ShloMosaic.Adequacy
import Idealize.ShloMosaic.Init

noncomputable section

namespace Cert.Proof

open Idealize.ShloMosaic Idealize.ShloMosaic.ValueIdx Idealize.SL.Sem Cert.Antecedent

/-- The three programs run and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- On arguments that agree and a rule table with no negative entry, both programs end with the firing strengths
    `exp (∑_d L[s, setOf fs[r,d], d])` of the same log-memberships. -/
theorem algebraic : Cert.algebraic_KernelIdeal_ReferenceIdeal := by
  intro m ρ m' ρ' hpre hagree
  have hfs : ∀ c j, 0 ≤ (Cert.KernelIdeal.Arr.rules m c j).toInt := fun c j =>
    Cert.Pre_finite_inputs.Domain.table_nonneg _ _ _ _ (hpre c) j
  refine ⟨fun c => firing (Cert.KernelIdeal.Arr.memberships m c) (Cert.KernelIdeal.Arr.rules m c),
    Cert.KernelIdeal.Arr.run m ρ hfs, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v30_eq (F := Ideal) _ _ _ _).trans ?_
  funext i
  obtain ⟨s, r, rfl⟩ : ∃ (s : Fin 512) (r : Fin 65536), i = ix2 s r := ⟨i 0, i 1, eq_ix2 i⟩
  rw [Cert.ReferenceIdeal.RefValue.result_apply _ _ _ _ (hfs c) s r]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
